-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000x256 : Shape := ⟨2, ![50000, 256]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S50000x256 : S_.BroadcastsInDim S50000x256 (![] : Fin 0 → Fin S50000x256.rank)
  reducesTo_S50000x256_S_d0_1 : S50000x256.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S256 .f32) (main_arg5 : FVec F S256 .f32) (main_arg6 : FVec F S256x128 .f32) (main_arg7 : FVec F S128 .f32) (main_arg8 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S800000 .f32) (main_arg2 : FVec F S50000x256 .f32) (main_arg3 : FVec F S128x256 .f32) (main_arg4 : FVec F S256 .f32) (main_arg5 : FVec F S256 .f32) (main_arg6 : FVec F S256x128 .f32) (main_arg7 : FVec F S128 .f32) (main_arg8 : FVec F S128 .f32) (main_arg9 : IVec S800000 32) (main_arg10 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x256 .f32 := Host.absf main_arg2
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S800000 : Shape := ⟨1, ![800000]⟩
abbrev S50000x256 : Shape := ⟨2, ![50000, 256]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1000x128 : Shape := ⟨2, ![1000, 128]⟩
abbrev S1000x256 : Shape := ⟨2, ![1000, 256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S800000x128 : Shape := ⟨2, ![800000, 128]⟩
abbrev S1x128 : Shape := ⟨2, ![1, 128]⟩

abbrev nBuf : Space → Nat
  | .hbm => 50
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S50000x256, .f32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S800000, .i32⟩
  | .hbm, ⟨10, _⟩ => ⟨S800000, .i32⟩
  | .hbm, ⟨11, _⟩ => ⟨S50000x256, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S800000x256, .f32⟩
  | .hbm, ⟨23, _⟩ => ⟨S800000x256, .f32⟩
  | .hbm, ⟨24, _⟩ => ⟨S_, .f32⟩
  | .hbm, ⟨25, _⟩ => ⟨S50000x256, .f32⟩
  | .hbm, ⟨26, _⟩ => ⟨S800000x1, .i32⟩
  | .hbm, ⟨27, _⟩ => ⟨S50000x256, .f32⟩
  | .hbm, ⟨28, _⟩ => ⟨S1x256, .f32⟩
  | .hbm, ⟨29, _⟩ => ⟨S1x256, .f32⟩
  | .hbm, ⟨30, _⟩ => ⟨S50000x128, .f32⟩
  | .hbm, ⟨31, _⟩ => ⟨S800000x1, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S1x128, .f32⟩
  | .hbm, ⟨48, _⟩ => ⟨S1x128, .f32⟩
  | .hbm, ⟨49, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S128x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1x256, .f32⟩
  | .local _ .vmem, ⟨8, _⟩ => ⟨S1x256, .f32⟩
  | .local _ .vmem, ⟨9, _⟩ => ⟨S1000x256, .f32⟩
  | .local _ .vmem, ⟨10, _⟩ => ⟨S1000x256, .f32⟩
  | .local _ .vmem, ⟨11, _⟩ => ⟨S256x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1x128, .f32⟩
  | .local _ .vmem, ⟨17, _⟩ => ⟨S1x128, .f32⟩
  | .local _ .vmem, ⟨18, _⟩ => ⟨S1000x128, .f32⟩
  | .local _ .vmem, ⟨19, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1000x256_S1000x256_0_0 : ∀ a, (![0, 0] : Fin 2 → Nat) a + S1000x256.size a ≤ S1000x256.size a
  h_S1000x256 : 0 < S1000x256.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  shapeCasts_S1000x256_S1000x256 : S1000x256.ShapeCasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x128_S256x128_0_0 : ∀ a, (![0, 0] : Fin 2 → Nat) a + S256x128.size a ≤ S256x128.size a
  h_S256x128 : 0 < S256x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S1000x128_S1000x128 : S1000x128.ShapeCasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  dot_S1000x128_S128x256_S1000x256_1_0_0_1_n_n_wf : DotDims.WF S1000x128 S128x256 S1000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S1000x256_S256x128_S1000x128_1_0_0_1_n_n_wf : DotDims.WF S1000x256 S256x128 S1000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S50000x256.size a
  hwx1_3 : ∀ i : grid1.Coords, EltTy.bits .f32 = 32 ∨ (Rect.block (s := S50000x256) S1000x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S50000x128.size a
  hwx1_5 : ∀ i : grid1.Coords, EltTy.bits .f32 = 32 ∨ (Rect.block (s := S50000x128) S1000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x128.size a ≤ S50000x128.size a
  hwx2_3 : ∀ i : grid2.Coords, EltTy.bits .f32 = 32 ∨ (Rect.block (s := S50000x128) S1000x128.size (cc2_transform_3 i) (hinb2_3 i)).WholeWords (EltTy.packing .f32)

variable [Facts₀]

def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S1000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S50000x256 : Shape := ⟨2, ![50000, 256]⟩
abbrev S128x256 : Shape := ⟨2, ![128, 256]⟩
abbrev S256 : Shape := ⟨1, ![256]⟩
abbrev S256x128 : Shape := ⟨2, ![256, 128]⟩
abbrev S128 : Shape := ⟨1, ![128]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S800000x128 : Shape := ⟨2, ![800000, 128]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S50000x256, .f32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S800000, .i32⟩
  | .hbm, ⟨10, _⟩ => ⟨S800000, .i32⟩
  | .hbm, ⟨11, _⟩ => ⟨S50000x256, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S800000x256, .f32⟩
  | .hbm, ⟨23, _⟩ => ⟨S800000x256, .f32⟩
  | .hbm, ⟨24, _⟩ => ⟨S_, .f32⟩
  | .hbm, ⟨25, _⟩ => ⟨S50000x256, .f32⟩
  | .hbm, ⟨26, _⟩ => ⟨S800000x1, .i32⟩
  | .hbm, ⟨27, _⟩ => ⟨S50000x256, .f32⟩
  | .hbm, ⟨28, _⟩ => ⟨S1x256, .f32⟩
  | .hbm, ⟨29, _⟩ => ⟨S50000x256, .f32⟩
  | .hbm, ⟨30, _⟩ => ⟨S50000x256, .f32⟩
  | .hbm, ⟨31, _⟩ => ⟨S_, .f32⟩
  | .hbm, ⟨32, _⟩ => ⟨S50000x256, .f32⟩
  | .hbm, ⟨33, _⟩ => ⟨S50000x256, .i1⟩
  | .hbm, ⟨34, _⟩ => ⟨S1x256, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S_, .f32⟩
  | .hbm, ⟨39, _⟩ => ⟨S50000x256, .f32⟩
  | .hbm, ⟨40, _⟩ => ⟨S50000x256, .i1⟩
  | .hbm, ⟨41, _⟩ => ⟨S50000x256, .f32⟩
  | .hbm, ⟨42, _⟩ => ⟨S_, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S50000x128, .f32⟩
  | .hbm, ⟨47, _⟩ => ⟨S800000x1, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .i1⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.Region0.lean ====
/-
  The first kernel region: the dense product. Each grid point t multiplies rows 1000 t … 1000 t + 999 of x by the whole of w
  (the change of float format is the identity on the extended reals, the product into a zero accumulator is the sum
  over k of x(r, k) * w(k, q)) and writes rows 1000 t … 1000 t + 999 of the result. The fifty row blocks tile the result,
  so after the region the result array is the product of the two arrays as the region found them.
-/
import proofs.«140422_j3762391351712_1_alg».proof.Proof.Gen.KernelIdeal.Frame
import proofs.«140422_j3762391351712_1_alg».proof.Proof.LibOuterDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Rows of x against columns of w: entry (r, q) is the sum over k of x(r, k) * w(k, q). -/
def prod (x : S50000x128.Idx → EReal) (w : S128x256.Idx → EReal) : S50000x256.Idx → EReal :=
  fun i => ∑ k : Fin 128, x (ix2 ⟨(i 0).val, idx2_lt0 i⟩ k) * w (ix2 k ⟨(i 1).val, idx2_lt1 i⟩)

theorem hz : (![0, 0] : Fin 2 → Nat) = fun _ => 0 := funext fun a => by fin_cases a <;> rfl

theorem pay_apply (x0 : Vec Ideal S1000x128 .f32) (x1 : Vec Ideal S128x256 .f32) (p : Fin 1000) (q : Fin 256) :
    k0_pay1 x0 x1 (ix2 p q) = ∑ k : Fin 128, x0 (ix2 p k) * x1 (ix2 k q) := by
  unfold k0_pay1
  exact LibOuterDot.matmul_zero_ix2 dot_S1000x128_S128x256_S1000x256_1_0_0_1_n_n rfl rfl rfl rfl rfl rfl rfl rfl none _ _ p q

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S1000x128) hz, View.ld_unit_zero (S := S128x256) hz]
  funext j
  obtain ⟨p, q, rfl⟩ : ∃ (p : Fin 1000) (q : Fin 256), j = ix2 p q := ⟨j 0, j 1, eq_ix2 j⟩
  show k0_pay1 (iblk0 V c 0 t) (iblk0 V c 1 t) (ix2 p q) = prod (V c main_arg0) (V c main_arg3) (((cfg0.win 2).blk t).view.emb (ix2 p q))
  refine (pay_apply _ _ p q).trans ?_
  unfold prod
  refine Finset.sum_congr rfl fun k _ => ?_
  obtain ⟨e0, e1, e2, e3, e4, e5⟩ := idx_facts t
  have hx : iblk0 V c 0 t (ix2 p k) = V c main_arg0 (ix2 ⟨((((cfg0.win 2).blk t).view.emb (ix2 p q)) 0).val, idx2_lt0 _⟩ k) := by
    show V c main_arg0 (((cfg0.win 0).blk t).view.emb (ix2 p k)) = _
    refine congrArg (V c main_arg0) (funext fun a => Fin.ext ?_)
    match a with
    | ⟨0, _⟩ => show win0_0.index t (0 : Fin 2) * 1000 + 1 * p.val = win0_2.index t (0 : Fin 2) * 1000 + 1 * p.val; omega
    | ⟨1, _⟩ => show win0_0.index t (1 : Fin 2) * 128 + 1 * k.val = k.val; omega
  have hw : iblk0 V c 1 t (ix2 k q) = V c main_arg3 (ix2 k ⟨((((cfg0.win 2).blk t).view.emb (ix2 p q)) 1).val, idx2_lt1 _⟩) := by
    show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 256 + 1 * q.val = win0_2.index t (1 : Fin 2) * 256 + 1 * q.val; omega
  rw [hx, hw]

/-- An index of the result array is in point t's block iff each coordinate is in the block's range on its axis. -/
theorem mem_blk (t : Fin cfg0.N) (i : S50000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v0).slice (win0_2.rect t)).set ↔ _
  rw [View.set_slice_whole, Rect.mem_set_unit]
  exact Iff.rfl

/-- Row r of the result lies in the block of point r / 1000. -/
theorem cover (i : S50000x256.Idx) : ∃ t : Fin cfg0.N, (cfg0.win 2).flush t = true ∧ i ∈ ((cfg0.win 2).blk t).view.set := by
  have hi0 : (i 0).val < 50000 := idx2_lt0 i
  have hi1 : (i 1).val < 256 := idx2_lt1 i
  have ht : (i 0).val / 1000 < cfg0.N := by show _ < 50; omega
  refine ⟨⟨(i 0).val / 1000, ht⟩, flush0_2 _, ?_⟩
  rw [mem_blk]
  obtain ⟨-, -, -, -, e4, e5⟩ := idx_facts ⟨(i 0).val / 1000, ht⟩
  intro a
  match a with
  | ⟨0, _⟩ =>
    show win0_2.index ⟨(i 0).val / 1000, ht⟩ (0 : Fin 2) * 1000 ≤ (i 0).val ∧ (i 0).val < win0_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win0_2.index ⟨(i 0).val / 1000, ht⟩ (1 : Fin 2) * 256 ≤ (i 1).val ∧ (i 1).val < win0_2.index ⟨(i 0).val / 1000, ht⟩ (1 : Fin 2) * 256 + 256
    rw [e5]; omega

/-- After the region the result array holds the product of the two argument arrays as the region found them. -/
theorem final (c : Dev nD) : (dat0 V c).arrAt 2 cfg0.N = prod (V c main_arg0) (V c main_arg3) :=
  (dat0 V c).arrAt_eq_of_cover 2 _ (fun t _ => flushed_eq V c t) cover

end Cert.KernelIdeal.Region0

end
-- ==== Proof.Region1.lean ====
/-
  The second kernel region: bias, leaky rectifier and dropout scale, then the dense product with w. Each grid point t
  takes rows 1000 t … 1000 t + 999 of the aggregate and of the mask, the bias row and the slope row, forms the hidden
  activation entry by entry and multiplies it by the whole of w: entry (r, q) of the result is the sum over k of the
  hidden activation at (r, k) times w(k, q). The fifty row blocks tile the result.
-/
import proofs.«140422_j3762391351712_1_alg».proof.Proof.Gen.KernelIdeal.Frame
import proofs.«140422_j3762391351712_1_alg».proof.Proof.LibOuterDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The hidden activation: bias, the leaky rectifier with slope a, then the dropout scale, 2 where mask > 1/2 and 0
    elsewhere. -/
def hid (agg b a mask : EReal) : EReal :=
  Scalar.select (FloatOps.cmpf (F := Ideal) .oge (agg + b) (Ideal.ofBits .f32 0x00000000#32)) (agg + b) (a * (agg + b))
    * Scalar.select (FloatOps.cmpf (F := Ideal) .ogt mask (Ideal.ofBits .f32 0x3F000000#32)) (Ideal.ofBits .f32 0x40000000#32) (Ideal.ofBits .f32 0x00000000#32)

/-- The whole result: entry (r, q) is the sum over k of the hidden activation at (r, k) times w(k, q). -/
def out (agg : S50000x256.Idx → EReal) (b a : S1x256.Idx → EReal) (mask : S50000x256.Idx → EReal) (w : S256x128.Idx → EReal) :
    S50000x128.Idx → EReal :=
  fun i => ∑ k : Fin 256, hid (agg (ix2 ⟨(i 0).val, idx2_lt0 i⟩ k)) (b (ix2 (0 : Fin 1) k)) (a (ix2 (0 : Fin 1) k))
      (mask (ix2 ⟨(i 0).val, idx2_lt0 i⟩ k)) * w (ix2 k ⟨(i 1).val, idx2_lt1 i⟩)

theorem hz : (![0, 0] : Fin 2 → Nat) = fun _ => 0 := funext fun a => by fin_cases a <;> rfl

theorem pay_apply (x0 : Vec Ideal S1000x256 .f32) (x1 x2 : Vec Ideal S1x256 .f32) (x3 : Vec Ideal S1000x256 .f32)
    (x4 : Vec Ideal S256x128 .f32) (p : Fin 1000) (q : Fin 128) :
    k1_pay1 x0 x1 x2 x3 x4 (ix2 p q)
      = ∑ k : Fin 256, hid (x0 (ix2 p k)) (x1 (ix2 (0 : Fin 1) k)) (x2 (ix2 (0 : Fin 1) k)) (x3 (ix2 p k)) * x4 (ix2 k q) := by
  unfold k1_pay1
  refine (LibOuterDot.matmul_zero_ix2 dot_S1000x256_S256x128_S1000x128_1_0_0_1_n_n rfl rfl rfl rfl rfl rfl rfl rfl none _ _ p q).trans ?_
  refine Finset.sum_congr rfl fun k _ => ?_
  unfold hid
  simp only [shapeCast_self]
  rw [truncf_apply, truncf_apply, mulf_apply, select_apply, select_apply, cmpf_apply, cmpf_apply, mulf_apply, addf_apply,
    broadcastTo_1b_ab_apply, broadcastTo_1b_ab_apply]
  rfl

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem flushed_eq (c : Dev nD) (t : Fin cfg1.N) :
    (dat1 V c).flushed 5 t = ((cfg1.win 5).blk t).view.read (Elt Ideal)
      (out (V c main_v13) (V c main_v14) (V c main_v15) (V c main_arg2) (V c main_arg6)) := by
  show (cfg1.win 5).cut (grid1.coords t) ((dat1 V c).after 5 t) = _
  rw [after1_5]
  unfold out1_5
  rw [View.canon_unit_zero hz]
  simp only [View.ld_unit_zero (S := S1000x256) hz, View.ld_unit_zero (S := S1x256) hz, View.ld_unit_zero (S := S256x128) hz]
  funext j
  obtain ⟨p, q, rfl⟩ : ∃ (p : Fin 1000) (q : Fin 128), j = ix2 p q := ⟨j 0, j 1, eq_ix2 j⟩
  show k1_pay1 (iblk1 V c 0 t) (iblk1 V c 1 t) (iblk1 V c 2 t) (iblk1 V c 3 t) (iblk1 V c 4 t) (ix2 p q)
    = out (V c main_v13) (V c main_v14) (V c main_v15) (V c main_arg2) (V c main_arg6) (((cfg1.win 5).blk t).view.emb (ix2 p q))
  refine (pay_apply _ _ _ _ _ p q).trans ?_
  unfold out
  refine Finset.sum_congr rfl fun k _ => ?_
  obtain ⟨e0, e1, e2, e3, e4, e5, e6, e7, e8, e9, e10, e11⟩ := idx_facts t
  have hx : iblk1 V c 0 t (ix2 p k) = V c main_v13 (ix2 ⟨((((cfg1.win 5).blk t).view.emb (ix2 p q)) 0).val, idx2_lt0 _⟩ k) := by
    show V c main_v13 (((cfg1.win 0).blk t).view.emb (ix2 p k)) = _
    refine congrArg (V c main_v13) (funext fun a => Fin.ext ?_)
    match a with
    | ⟨0, _⟩ => show win1_0.index t (0 : Fin 2) * 1000 + 1 * p.val = win1_5.index t (0 : Fin 2) * 1000 + 1 * p.val; omega
    | ⟨1, _⟩ => show win1_0.index t (1 : Fin 2) * 256 + 1 * k.val = k.val; omega
  have hb : iblk1 V c 1 t (ix2 (0 : Fin 1) k) = V c main_v14 (ix2 (0 : Fin 1) k) := by
    show V c main_v14 (((cfg1.win 1).blk t).view.emb (ix2 (0 : Fin 1) k)) = _
    refine congrArg (V c main_v14) (funext fun a => Fin.ext ?_)
    match a with
    | ⟨0, _⟩ => show win1_1.index t (0 : Fin 2) * 1 + 1 * 0 = 0; omega
    | ⟨1, _⟩ => show win1_1.index t (1 : Fin 2) * 256 + 1 * k.val = k.val; omega
  have ha : iblk1 V c 2 t (ix2 (0 : Fin 1) k) = V c main_v15 (ix2 (0 : Fin 1) k) := by
    show V c main_v15 (((cfg1.win 2).blk t).view.emb (ix2 (0 : Fin 1) k)) = _
    refine congrArg (V c main_v15) (funext fun a => Fin.ext ?_)
    match a with
    | ⟨0, _⟩ => show win1_2.index t (0 : Fin 2) * 1 + 1 * 0 = 0; omega
    | ⟨1, _⟩ => show win1_2.index t (1 : Fin 2) * 256 + 1 * k.val = k.val; omega
  have hm : iblk1 V c 3 t (ix2 p k) = V c main_arg2 (ix2 ⟨((((cfg1.win 5).blk t).view.emb (ix2 p q)) 0).val, idx2_lt0 _⟩ k) := by
    show V c main_arg2 (((cfg1.win 3).blk t).view.emb (ix2 p k)) = _
    refine congrArg (V c main_arg2) (funext fun a => Fin.ext ?_)
    match a with
    | ⟨0, _⟩ => show win1_3.index t (0 : Fin 2) * 1000 + 1 * p.val = win1_5.index t (0 : Fin 2) * 1000 + 1 * p.val; omega
    | ⟨1, _⟩ => show win1_3.index t (1 : Fin 2) * 256 + 1 * k.val = k.val; omega
  have hw : iblk1 V c 4 t (ix2 k q) = V c main_arg6 (ix2 k ⟨((((cfg1.win 5).blk t).view.emb (ix2 p q)) 1).val, idx2_lt1 _⟩) := by
    show V c main_arg6 (((cfg1.win 4).blk t).view.emb (ix2 k q)) = _
    refine congrArg (V c main_arg6) (funext fun a => Fin.ext ?_)
    match a with
    | ⟨0, _⟩ => show win1_4.index t (0 : Fin 2) * 256 + 1 * k.val = k.val; omega
    | ⟨1, _⟩ => show win1_4.index t (1 : Fin 2) * 128 + 1 * q.val = win1_5.index t (1 : Fin 2) * 128 + 1 * q.val; omega
  rw [hx, hb, ha, hm, hw]

/-- An index of the result array is in point t's block iff each coordinate is in the block's range on its axis. -/
theorem mem_blk (t : Fin cfg1.N) (i : S50000x128.Idx) :
    i ∈ ((cfg1.win 5).blk t).view.set ↔ ∀ a : Fin 2, win1_5.index t a * S1000x128.size a ≤ (i a).val ∧ (i a).val < win1_5.index t a * S1000x128.size a + S1000x128.size a := by
  show i ∈ ((View.whole main_v16).slice (win1_5.rect t)).set ↔ _
  rw [View.set_slice_whole, Rect.mem_set_unit]
  exact Iff.rfl

/-- Row r of the result lies in the block of point r / 1000. -/
theorem cover (i : S50000x128.Idx) : ∃ t : Fin cfg1.N, (cfg1.win 5).flush t = true ∧ i ∈ ((cfg1.win 5).blk t).view.set := by
  have hi0 : (i 0).val < 50000 := idx2_lt0 i
  have hi1 : (i 1).val < 128 := idx2_lt1 i
  have ht : (i 0).val / 1000 < cfg1.N := by show _ < 50; omega
  refine ⟨⟨(i 0).val / 1000, ht⟩, flush1_5 _, ?_⟩
  rw [mem_blk]
  obtain ⟨-, -, -, -, -, -, -, -, -, -, e10, e11⟩ := idx_facts ⟨(i 0).val / 1000, ht⟩
  intro a
  match a with
  | ⟨0, _⟩ =>
    show win1_5.index ⟨(i 0).val / 1000, ht⟩ (0 : Fin 2) * 1000 ≤ (i 0).val ∧ (i 0).val < win1_5.index ⟨(i 0).val / 1000, ht⟩ (0 : Fin 2) * 1000 + 1000
    rw [e10]; show (i 0).val / 1000 * 1000 ≤ (i 0).val ∧ (i 0).val < (i 0).val / 1000 * 1000 + 1000; omega
  | ⟨1, _⟩ =>
    show win1_5.index ⟨(i 0).val / 1000, ht⟩ (1 : Fin 2) * 128 ≤ (i 1).val ∧ (i 1).val < win1_5.index ⟨(i 0).val / 1000, ht⟩ (1 : Fin 2) * 128 + 128
    rw [e11]; omega

/-- After the region the result array holds out of the five arrays as the region found them. -/
theorem final (c : Dev nD) :
    (dat1 V c).arrAt 5 cfg1.N = out (V c main_v13) (V c main_v14) (V c main_v15) (V c main_arg2) (V c main_arg6) :=
  (dat1 V c).arrAt_eq_of_cover 5 _ (fun t _ => flushed_eq V c t) cover

end Cert.KernelIdeal.Region1

end
-- ==== Proof.Region2.lean ====
/-
  The third kernel region: bias and leaky rectifier, entry by entry. Each grid point t takes rows 1000 t … 1000 t + 999
  of the aggregate, the bias row and the slope row, and writes the same rows of the result. The fifty row blocks tile
  the result.
-/
import proofs.«140422_j3762391351712_1_alg».proof.Proof.Gen.KernelIdeal.Frame
import proofs.«140422_j3762391351712_1_alg».proof.Proof.LibOuterDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Bias, then the leaky rectifier with slope a: with pre = agg + b, the value is pre where pre ≥ 0 and a * pre elsewhere. -/
def act (agg b a : EReal) : EReal :=
  Scalar.select (FloatOps.cmpf (F := Ideal) .oge (agg + b) (Ideal.ofBits .f32 0x00000000#32)) (agg + b) (a * (agg + b))

/-- The whole result: entry (r, q) is act of agg(r, q), b(0, q) and a(0, q). -/
def out (agg : S50000x128.Idx → EReal) (b a : S1x128.Idx → EReal) : S50000x128.Idx → EReal :=
  fun i => act (agg i) (b (ix2 (0 : Fin 1) ⟨(i 1).val, idx2_lt1 i⟩)) (a (ix2 (0 : Fin 1) ⟨(i 1).val, idx2_lt1 i⟩))

theorem hz : (![0, 0] : Fin 2 → Nat) = fun _ => 0 := funext fun a => by fin_cases a <;> rfl

theorem pay_apply (x0 : Vec Ideal S1000x128 .f32) (x1 x2 : Vec Ideal S1x128 .f32) (p : Fin 1000) (q : Fin 128) :
    k2_pay1 x0 x1 x2 (ix2 p q) = act (x0 (ix2 p q)) (x1 (ix2 (0 : Fin 1) q)) (x2 (ix2 (0 : Fin 1) q)) := by
  unfold k2_pay1 act
  simp only [shapeCast_self]
  rw [select_apply, cmpf_apply, mulf_apply, addf_apply, broadcastTo_1b_ab_apply, broadcastTo_1b_ab_apply, broadcast_apply]
  rfl

theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem flushed_eq (c : Dev nD) (t : Fin cfg2.N) :
    (dat2 V c).flushed 3 t = ((cfg2.win 3).blk t).view.read (Elt Ideal) (out (V c main_v29) (V c main_v30) (V c main_v31)) := by
  show (cfg2.win 3).cut (grid2.coords t) ((dat2 V c).after 3 t) = _
  rw [after2_3]
  unfold out2_3
  rw [View.canon_unit_zero hz]
  simp only [View.ld_unit_zero (S := S1000x128) hz, View.ld_unit_zero (S := S1x128) hz]
  funext j
  obtain ⟨p, q, rfl⟩ : ∃ (p : Fin 1000) (q : Fin 128), j = ix2 p q := ⟨j 0, j 1, eq_ix2 j⟩
  show k2_pay1 (iblk2 V c 0 t) (iblk2 V c 1 t) (iblk2 V c 2 t) (ix2 p q) = out (V c main_v29) (V c main_v30) (V c main_v31) (((cfg2.win 3).blk t).view.emb (ix2 p q))
  refine (pay_apply _ _ _ p q).trans ?_
  unfold out
  obtain ⟨e0, e1, e2, e3, e4, e5, e6, e7⟩ := idx_facts t
  have hx : iblk2 V c 0 t (ix2 p q) = V c main_v29 (((cfg2.win 3).blk t).view.emb (ix2 p q)) := by
    show V c main_v29 (((cfg2.win 0).blk t).view.emb (ix2 p q)) = _
    refine congrArg (V c main_v29) (funext fun a => Fin.ext ?_)
    match a with
    | ⟨0, _⟩ => show win2_0.index t (0 : Fin 2) * 1000 + 1 * p.val = win2_3.index t (0 : Fin 2) * 1000 + 1 * p.val; omega
    | ⟨1, _⟩ => show win2_0.index t (1 : Fin 2) * 128 + 1 * q.val = win2_3.index t (1 : Fin 2) * 128 + 1 * q.val; omega
  have hb : iblk2 V c 1 t (ix2 (0 : Fin 1) q) = V c main_v30 (ix2 (0 : Fin 1) ⟨((((cfg2.win 3).blk t).view.emb (ix2 p q)) 1).val, idx2_lt1 _⟩) := by
    show V c main_v30 (((cfg2.win 1).blk t).view.emb (ix2 (0 : Fin 1) q)) = _
    refine congrArg (V c main_v30) (funext fun a => Fin.ext ?_)
    match a with
    | ⟨0, _⟩ => show win2_1.index t (0 : Fin 2) * 1 + 1 * 0 = 0; omega
    | ⟨1, _⟩ => show win2_1.index t (1 : Fin 2) * 128 + 1 * q.val = win2_3.index t (1 : Fin 2) * 128 + 1 * q.val; omega
  have ha : iblk2 V c 2 t (ix2 (0 : Fin 1) q) = V c main_v31 (ix2 (0 : Fin 1) ⟨((((cfg2.win 3).blk t).view.emb (ix2 p q)) 1).val, idx2_lt1 _⟩) := by
    show V c main_v31 (((cfg2.win 2).blk t).view.emb (ix2 (0 : Fin 1) q)) = _
    refine congrArg (V c main_v31) (funext fun a => Fin.ext ?_)
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  rw [hx, hb, ha]

/-- An index of the result array is in point t's block iff each coordinate is in the block's range on its axis. -/
theorem mem_blk (t : Fin cfg2.N) (i : S50000x128.Idx) :
    i ∈ ((cfg2.win 3).blk t).view.set ↔ ∀ a : Fin 2, win2_3.index t a * S1000x128.size a ≤ (i a).val ∧ (i a).val < win2_3.index t a * S1000x128.size a + S1000x128.size a := by
  show i ∈ ((View.whole main_v32).slice (win2_3.rect t)).set ↔ _
  rw [View.set_slice_whole, Rect.mem_set_unit]
  exact Iff.rfl

/-- Row r of the result lies in the block of point r / 1000. -/
theorem cover (i : S50000x128.Idx) : ∃ t : Fin cfg2.N, (cfg2.win 3).flush t = true ∧ i ∈ ((cfg2.win 3).blk t).view.set := by
  have hi0 : (i 0).val < 50000 := idx2_lt0 i
  have hi1 : (i 1).val < 128 := idx2_lt1 i
  have ht : (i 0).val / 1000 < cfg2.N := by show _ < 50; omega
  refine ⟨⟨(i 0).val / 1000, ht⟩, flush2_3 _, ?_⟩
  rw [mem_blk]
  obtain ⟨-, -, -, -, -, -, e6, e7⟩ := idx_facts ⟨(i 0).val / 1000, ht⟩
  intro a
  match a with
  | ⟨0, _⟩ =>
    show win2_3.index ⟨(i 0).val / 1000, ht⟩ (0 : Fin 2) * 1000 ≤ (i 0).val ∧ (i 0).val < win2_3.index ⟨(i 0).val / 1000, ht⟩ (0 : Fin 2) * 1000 + 1000
    rw [e6]; show (i 0).val / 1000 * 1000 ≤ (i 0).val ∧ (i 0).val < (i 0).val / 1000 * 1000 + 1000; omega
  | ⟨1, _⟩ =>
    show win2_3.index ⟨(i 0).val / 1000, ht⟩ (1 : Fin 2) * 128 ≤ (i 1).val ∧ (i 1).val < win2_3.index ⟨(i 0).val / 1000, ht⟩ (1 : Fin 2) * 128 + 128
    rw [e7]; omega

/-- After the region the result array holds out of the three arrays as the region found them. -/
theorem final (c : Dev nD) : (dat2 V c).arrAt 3 cfg2.N = out (V c main_v29) (V c main_v30) (V c main_v31) :=
  (dat2 V c).arrAt_eq_of_cover 3 _ (fun t _ => flushed_eq V c t) cover

end Cert.KernelIdeal.Region2

end
-- ==== Proof.Chain.lean ====
/-
  The kernel's result as one function of its eleven arguments. Between the three kernel regions the program aggregates
  over the edges on the host: it gathers the rows the column indices name (a negative index first moved up by the
  number of rows), scales each gathered row by its edge value and adds it into the row the row index names. Those
  operations are carried here as two named functions, one per width, and never opened. The bias and slope vectors
  enter the second and third regions as one-row arrays.
-/
import proofs.«140422_j3762391351712_1_alg».proof.Proof.Gen.KernelIdeal.Frame
import proofs.«140422_j3762391351712_1_alg».proof.Proof.Region0
import proofs.«140422_j3762391351712_1_alg».proof.Proof.Region1
import proofs.«140422_j3762391351712_1_alg».proof.Proof.Region2
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

/-- Aggregation over the edges at width 256: gather the rows of h that col names, scale row e by vals e, add it into
    row (row e) of a zero array. -/
def agg256 (h : (⟨S50000x256, .f32⟩ : BufTy).Contents (Elt Ideal)) (vals : (⟨S800000, .f32⟩ : BufTy).Contents (Elt Ideal)) (row col : (⟨S800000, .i32⟩ : BufTy).Contents (Elt Ideal)) :
    (⟨S50000x256, .f32⟩ : BufTy).Contents (Elt Ideal) :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 row)
    (mulf (broadcastInDim S800000x256 ![0, 1] bcast_S800000x1_S800000x256_0_1 (broadcastInDim S800000x1 ![0] bcast_S800000_S800000x1_0 vals))
      (Host.gather gather_S50000x256_S800000x1_S800000x256_1_0_n_n_0_1_1256 h
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

/-- The same aggregation at width 128. -/
def agg128 (h : (⟨S50000x128, .f32⟩ : BufTy).Contents (Elt Ideal)) (vals : (⟨S800000, .f32⟩ : BufTy).Contents (Elt Ideal)) (row col : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 row)
    (mulf (broadcastInDim S800000x128 ![0, 1] bcast_S800000x1_S800000x128_0_1 (broadcastInDim S800000x1 ![0] bcast_S800000_S800000x1_0 vals))
      (Host.gather gather_S50000x128_S800000x1_S800000x128_1_0_n_n_0_1_1128 h
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

/-- A vector of 256 entries as an array of one row. -/
def row256 (x : (⟨S256, .f32⟩ : BufTy).Contents (Elt Ideal)) : (⟨S1x256, .f32⟩ : BufTy).Contents (Elt Ideal) := shapeCast S1x256 x shapeCasts_S256_S1x256
/-- A vector of 128 entries as an array of one row. -/
def row128 (x : (⟨S128, .f32⟩ : BufTy).Contents (Elt Ideal)) : (⟨S1x128, .f32⟩ : BufTy).Contents (Elt Ideal) := shapeCast S1x128 x shapeCasts_S128_S1x128

/-- The kernel's result of its eleven arguments: product, aggregation, hidden layer and product, aggregation, output
    activation. -/
def result (x0 : (⟨S50000x128, .f32⟩ : BufTy).Contents (Elt Ideal)) (x1 : (⟨S800000, .f32⟩ : BufTy).Contents (Elt Ideal)) (x2 : (⟨S50000x256, .f32⟩ : BufTy).Contents (Elt Ideal))
    (x3 : (⟨S128x256, .f32⟩ : BufTy).Contents (Elt Ideal)) (x4 x5 : (⟨S256, .f32⟩ : BufTy).Contents (Elt Ideal)) (x6 : (⟨S256x128, .f32⟩ : BufTy).Contents (Elt Ideal))
    (x7 x8 : (⟨S128, .f32⟩ : BufTy).Contents (Elt Ideal)) (x9 x10 : (⟨S800000, .i32⟩ : BufTy).Contents (Elt Ideal)) : (⟨S50000x128, .f32⟩ : BufTy).Contents (Elt Ideal) :=
  Region2.out (agg128 (Region1.out (agg256 (Region0.prod x0 x3) x1 x9 x10) (row256 x4) (row256 x5) x2 x6) x1 x9 x10)
    (row128 x7) (row128 x8)

variable (m : (ℓ : Loc nD τ sig) → Buf (Elt Ideal) ℓ) (ρ : Dev nD → PrngReg)

/-- None of the host operations between the regions writes the buffer in question. -/
local macro "not_written" : tactic => `(tactic| (
  simp only [hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments as each region and each host stretch finds them: as launched -/

theorem W1_arg1 (c : Dev nD) : W1 m ρ c (Proc.devRef .tc main_arg1) = m ((c : Thread nD τ).loc main_arg1) := W1_of_ne m ρ c main_arg1 (by decide)
theorem W1_arg4 (c : Dev nD) : W1 m ρ c (Proc.devRef .tc main_arg4) = m ((c : Thread nD τ).loc main_arg4) := W1_of_ne m ρ c main_arg4 (by decide)
theorem W1_arg5 (c : Dev nD) : W1 m ρ c (Proc.devRef .tc main_arg5) = m ((c : Thread nD τ).loc main_arg5) := W1_of_ne m ρ c main_arg5 (by decide)
theorem W1_arg9 (c : Dev nD) : W1 m ρ c (Proc.devRef .tc main_arg9) = m ((c : Thread nD τ).loc main_arg9) := W1_of_ne m ρ c main_arg9 (by decide)
theorem W1_arg10 (c : Dev nD) : W1 m ρ c (Proc.devRef .tc main_arg10) = m ((c : Thread nD τ).loc main_arg10) := W1_of_ne m ρ c main_arg10 (by decide)

theorem W2_arg1 (c : Dev nD) : W2 m ρ c (Proc.devRef .tc main_arg1) = m ((c : Thread nD τ).loc main_arg1) :=
  (StableHlo.after_of_forall_not_mem (b := Proc.devRef .tc main_arg1) _ _ (List.forall_iff_forall_mem.mp (by not_written))).trans
    (W1_of_ne m ρ c main_arg1 (by decide))
theorem W2_arg2 (c : Dev nD) : W2 m ρ c (Proc.devRef .tc main_arg2) = m ((c : Thread nD τ).loc main_arg2) :=
  (StableHlo.after_of_forall_not_mem (b := Proc.devRef .tc main_arg2) _ _ (List.forall_iff_forall_mem.mp (by not_written))).trans
    (W1_of_ne m ρ c main_arg2 (by decide))
theorem W2_arg6 (c : Dev nD) : W2 m ρ c (Proc.devRef .tc main_arg6) = m ((c : Thread nD τ).loc main_arg6) :=
  (StableHlo.after_of_forall_not_mem (b := Proc.devRef .tc main_arg6) _ _ (List.forall_iff_forall_mem.mp (by not_written))).trans
    (W1_of_ne m ρ c main_arg6 (by decide))
theorem W2_arg7 (c : Dev nD) : W2 m ρ c (Proc.devRef .tc main_arg7) = m ((c : Thread nD τ).loc main_arg7) :=
  (StableHlo.after_of_forall_not_mem (b := Proc.devRef .tc main_arg7) _ _ (List.forall_iff_forall_mem.mp (by not_written))).trans
    (W1_of_ne m ρ c main_arg7 (by decide))
theorem W2_arg8 (c : Dev nD) : W2 m ρ c (Proc.devRef .tc main_arg8) = m ((c : Thread nD τ).loc main_arg8) :=
  (StableHlo.after_of_forall_not_mem (b := Proc.devRef .tc main_arg8) _ _ (List.forall_iff_forall_mem.mp (by not_written))).trans
    (W1_of_ne m ρ c main_arg8 (by decide))
theorem W2_arg9 (c : Dev nD) : W2 m ρ c (Proc.devRef .tc main_arg9) = m ((c : Thread nD τ).loc main_arg9) :=
  (StableHlo.after_of_forall_not_mem (b := Proc.devRef .tc main_arg9) _ _ (List.forall_iff_forall_mem.mp (by not_written))).trans
    (W1_of_ne m ρ c main_arg9 (by decide))
theorem W2_arg10 (c : Dev nD) : W2 m ρ c (Proc.devRef .tc main_arg10) = m ((c : Thread nD τ).loc main_arg10) :=
  (StableHlo.after_of_forall_not_mem (b := Proc.devRef .tc main_arg10) _ _ (List.forall_iff_forall_mem.mp (by not_written))).trans
    (W1_of_ne m ρ c main_arg10 (by decide))

theorem W3_arg1 (c : Dev nD) : W3 m ρ c (Proc.devRef .tc main_arg1) = m ((c : Thread nD τ).loc main_arg1) := (W3_of_ne m ρ c main_arg1 (by decide)).trans (W2_arg1 m ρ c)
theorem W3_arg7 (c : Dev nD) : W3 m ρ c (Proc.devRef .tc main_arg7) = m ((c : Thread nD τ).loc main_arg7) := (W3_of_ne m ρ c main_arg7 (by decide)).trans (W2_arg7 m ρ c)
theorem W3_arg8 (c : Dev nD) : W3 m ρ c (Proc.devRef .tc main_arg8) = m ((c : Thread nD τ).loc main_arg8) := (W3_of_ne m ρ c main_arg8 (by decide)).trans (W2_arg8 m ρ c)
theorem W3_arg9 (c : Dev nD) : W3 m ρ c (Proc.devRef .tc main_arg9) = m ((c : Thread nD τ).loc main_arg9) := (W3_of_ne m ρ c main_arg9 (by decide)).trans (W2_arg9 m ρ c)
theorem W3_arg10 (c : Dev nD) : W3 m ρ c (Proc.devRef .tc main_arg10) = m ((c : Thread nD τ).loc main_arg10) := (W3_of_ne m ρ c main_arg10 (by decide)).trans (W2_arg10 m ρ c)

/-! ## What each host stretch computes -/

theorem V2_v13 (c : Dev nD) : V2 m ρ c main_v13
    = agg256 (W1 m ρ c (Proc.devRef .tc main_v0)) (W1 m ρ c (Proc.devRef .tc main_arg1)) (W1 m ρ c (Proc.devRef .tc main_arg9)) (W1 m ρ c (Proc.devRef .tc main_arg10)) := by
  show StableHlo.after hostOps1 (W1 m ρ c) (Proc.devRef .tc main_v13) = _
  unfold agg256
  after_results_simp <;> rfl
theorem V2_v14 (c : Dev nD) : V2 m ρ c main_v14 = row256 (W1 m ρ c (Proc.devRef .tc main_arg4)) := by
  show StableHlo.after hostOps1 (W1 m ρ c) (Proc.devRef .tc main_v14) = _
  unfold row256
  after_results
  rfl
theorem V2_v15 (c : Dev nD) : V2 m ρ c main_v15 = row256 (W1 m ρ c (Proc.devRef .tc main_arg5)) := by
  show StableHlo.after hostOps1 (W1 m ρ c) (Proc.devRef .tc main_v15) = _
  unfold row256
  after_results
  rfl
theorem V4_v29 (c : Dev nD) : V4 m ρ c main_v29
    = agg128 (W3 m ρ c (Proc.devRef .tc main_v16)) (W3 m ρ c (Proc.devRef .tc main_arg1)) (W3 m ρ c (Proc.devRef .tc main_arg9)) (W3 m ρ c (Proc.devRef .tc main_arg10)) := by
  show StableHlo.after hostOps2 (W3 m ρ c) (Proc.devRef .tc main_v29) = _
  unfold agg128
  after_results_simp <;> rfl
theorem V4_v30 (c : Dev nD) : V4 m ρ c main_v30 = row128 (W3 m ρ c (Proc.devRef .tc main_arg7)) := by
  show StableHlo.after hostOps2 (W3 m ρ c) (Proc.devRef .tc main_v30) = _
  unfold row128
  after_results
  rfl
theorem V4_v31 (c : Dev nD) : V4 m ρ c main_v31 = row128 (W3 m ρ c (Proc.devRef .tc main_arg8)) := by
  show StableHlo.after hostOps2 (W3 m ρ c) (Proc.devRef .tc main_v31) = _
  unfold row128
  after_results
  rfl

/-! ## The result -/

/-- After the first region its result array holds the product of x and the first weight matrix. -/
theorem W1_v0 (c : Dev nD) : W1 m ρ c (Proc.devRef .tc main_v0)
    = Region0.prod (m ((c : Thread nD τ).loc main_arg0)) (m ((c : Thread nD τ).loc main_arg3)) :=
  (W1_arr m ρ c 2).trans (Region0.final (V0 m ρ) c)

/-- After the second region its result array holds the hidden layer's product. -/
theorem W3_v16 (c : Dev nD) : W3 m ρ c (Proc.devRef .tc main_v16)
    = Region1.out (V2 m ρ c main_v13) (V2 m ρ c main_v14) (V2 m ρ c main_v15) (V2 m ρ c main_arg2) (V2 m ρ c main_arg6) :=
  (W3_arr m ρ c 5).trans (Region1.final (V2 m ρ) c)

/-- After the third region its result array holds the output activation. -/
theorem W5_v32 (c : Dev nD) : W5 m ρ c (Proc.devRef .tc main_v32)
    = Region2.out (V4 m ρ c main_v29) (V4 m ρ c main_v30) (V4 m ρ c main_v31) :=
  (W5_arr m ρ c 3).trans (Region2.final (V4 m ρ) c)

/-- The last boundary's contents at the result array are the kernel's result of the launch contents of the arguments. -/
theorem W5_result (c : Dev nD) : W5 m ρ c (Proc.devRef .tc main_v32)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  rw [W5_v32, V4_v29, V4_v30, V4_v31, W3_v16, V2_v13, V2_v14, V2_v15, W1_v0]
  rw [W3_arg1, W3_arg7, W3_arg8, W3_arg9, W3_arg10, W1_arg1, W1_arg4, W1_arg5, W1_arg9, W1_arg10]
  rw [show V2 m ρ c main_arg2 = m ((c : Thread nD τ).loc main_arg2) from W2_arg2 m ρ c,
      show V2 m ρ c main_arg6 = m ((c : Thread nD τ).loc main_arg6) from W2_arg6 m ρ c]
  rfl

end Cert.KernelIdeal.Chain

end
-- ==== Proof.Consts.lean ====
/-
  The three float literals the two programs spell, as the extended reals their bit patterns denote:
  +0.0 is 0, 2.0 is 2 and 0.5 is 1/2.
-/
import Idealize.ShloMosaic.PureOps.Ideal

noncomputable section

namespace Cert.Consts

open Idealize.ShloMosaic

/-- The pattern of +0.0 denotes 0. -/
theorem ofBits_zero : Ideal.ofBits .f32 0x00000000#32 = 0 := by
  simp [Ideal.ofBits, Ideal.ieee]

/-- The pattern of 2.0 denotes the real 2. -/
theorem ofBits_two : Ideal.ofBits .f32 0x40000000#32 = ((2 : ℝ) : EReal) := by
  simp [Ideal.ofBits, Ideal.ieee, -EReal.coe_mul]; norm_num

/-- The pattern of 0.5 denotes the real 1/2. -/
theorem ofBits_half : Ideal.ofBits .f32 0x3F000000#32 = ((1 / 2 : ℝ) : EReal) := by
  simp [Ideal.ofBits, Ideal.ieee, -EReal.coe_mul]; norm_num

end Cert.Consts

end
-- ==== Proof.Scalars.lean ====
/-
  The one scalar fact in which the two programs differ: the dropout scale. The kernel selects 2 or 0 by the bit of the
  comparison mask > 1/2; the reference reads that bit as the number 1 or 0 and divides it by 1/2. On the extended reals
  these agree: 1 / (1/2) = 2 and 0 / (1/2) = 0.
-/
import Idealize.ShloMosaic.PureOps.Ideal
import Idealize.ShloMosaic.Lib.ValueIdx
import proofs.«140422_j3762391351712_1_alg».proof.Proof.Consts

noncomputable section

namespace Cert.Scalars

open Idealize.ShloMosaic Idealize.ShloMosaic.ValueIdx

/-- Selecting 2 or 0 by a bit is dividing the bit, read as the number 1 or 0, by 1/2. -/
theorem keep_eq (b : BitVec 1) :
    Scalar.select b (Ideal.ofBits .f32 0x40000000#32) (Ideal.ofBits .f32 0x00000000#32)
      = Ideal.div (((b.toNat : ℝ)) : EReal) (Ideal.ofBits .f32 0x3F000000#32) := by
  rw [Consts.ofBits_two, Consts.ofBits_zero, Consts.ofBits_half, Ideal.div_coe (by norm_num)]
  by_cases h : b = 1#1
  · subst h
    rw [select_one, ← EReal.coe_mul]
    congr 1
    norm_num
  · have h0 : b = 0#1 := eq_zero_of_ne_one h
    subst h0
    rw [select_zero, ← EReal.coe_mul]
    norm_num

end Cert.Scalars

end
-- ==== Proof.Bridge.lean ====
/-
  The reference's result is the kernel's result, as functions of the eleven arguments. Stage by stage: the reference's
  first dense product is the first region's; its aggregation over the edges is the kernel's, operation for operation;
  its hidden layer — bias, leaky rectifier, the comparison bit of mask > 1/2 read as a number and divided by 1/2,
  then the second dense product — is the second region's, because selecting 2 or 0 by that bit is dividing it by 1/2;
  the second aggregation is again the kernel's; and its output activation is the third region's. A vector broadcast to
  one row and the same vector reshaped to one row are the same array.
-/
import proofs.«140422_j3762391351712_1_alg».proof.Proof.Gen.ReferenceIdeal.Read
import proofs.«140422_j3762391351712_1_alg».proof.Proof.Chain
import proofs.«140422_j3762391351712_1_alg».proof.Proof.Scalars

set_option maxRecDepth 16384

noncomputable section

open scoped BigOperators

namespace Cert.Bridge

open Idealize.ShloMosaic Idealize.ShloMosaic.TcCoe Idealize.ShloMosaic.ValueIdx Idealize.SL.Sem
open Cert.ReferenceIdeal Cert.ReferenceIdeal.Read
open Cert.KernelIdeal (Region0.prod Region1.out Region1.hid Region2.out Region2.act Chain.agg256 Chain.agg128 Chain.row256 Chain.row128 Chain.result)

/-- A vector of 256 entries reshaped to one row reads, at (0, k), the vector at k. -/
theorem row256_apply (x : (⟨S256, .f32⟩ : BufTy).Contents (Elt Ideal)) (k : Fin 256) : Chain.row256 x (ix2 (0 : Fin 1) k) = x (ix1 k) := by
  unfold Chain.row256
  exact shapeCast_a_1a_apply x _ 0 k

/-- A vector of 128 entries reshaped to one row reads, at (0, k), the vector at k. -/
theorem row128_apply (x : (⟨S128, .f32⟩ : BufTy).Contents (Elt Ideal)) (k : Fin 128) : Chain.row128 x (ix2 (0 : Fin 1) k) = x (ix1 k) := by
  unfold Chain.row128
  exact shapeCast_a_1a_apply x _ 0 k

/-- The reference's first dense product is the first region's function. -/
theorem stage0 (x0 : (⟨S50000x128, .f32⟩ : BufTy).Contents (Elt Ideal)) (x3 : (⟨S128x256, .f32⟩ : BufTy).Contents (Elt Ideal)) : val_main_v0 (F := Ideal) x0 x3 = Region0.prod x0 x3 := by
  funext i
  rw [val_main_v0_apply]
  unfold Region0.prod
  refine Finset.sum_congr rfl fun k _ => ?_
  have el : lidx_main_v0 i k = ix2 ⟨(i 0).val, idx2_lt0 i⟩ k := funext fun a => Fin.ext (by
    match a with
    | ⟨0, _⟩ => rfl
    | ⟨1, _⟩ => rfl)
  have er : ridx_main_v0 i k = ix2 k ⟨(i 1).val, idx2_lt1 i⟩ := funext fun a => Fin.ext (by
    match a with
    | ⟨0, _⟩ => rfl
    | ⟨1, _⟩ => rfl)
  rw [el, er]

/-- The reference's first aggregation is the kernel's, applied to the reference's first product. -/
theorem stage1 (x0 : (⟨S50000x128, .f32⟩ : BufTy).Contents (Elt Ideal)) (x1 : (⟨S800000, .f32⟩ : BufTy).Contents (Elt Ideal)) (x3 : (⟨S128x256, .f32⟩ : BufTy).Contents (Elt Ideal)) (x9 : (⟨S800000, .i32⟩ : BufTy).Contents (Elt Ideal)) (x10 : (⟨S800000, .i32⟩ : BufTy).Contents (Elt Ideal)) :
    val_main_v13 (F := Ideal) x0 x1 x3 x9 x10 = Chain.agg256 (val_main_v0 (F := Ideal) x0 x3) x1 x9 x10 := rfl

/-- The reference's hidden layer and second dense product are the second region's function of the first aggregate. -/
theorem stage2 (x0 : (⟨S50000x128, .f32⟩ : BufTy).Contents (Elt Ideal)) (x1 : (⟨S800000, .f32⟩ : BufTy).Contents (Elt Ideal)) (x2 : (⟨S50000x256, .f32⟩ : BufTy).Contents (Elt Ideal)) (x3 : (⟨S128x256, .f32⟩ : BufTy).Contents (Elt Ideal)) (x4 : (⟨S256, .f32⟩ : BufTy).Contents (Elt Ideal)) (x5 : (⟨S256, .f32⟩ : BufTy).Contents (Elt Ideal)) (x6 : (⟨S256x128, .f32⟩ : BufTy).Contents (Elt Ideal)) (x9 : (⟨S800000, .i32⟩ : BufTy).Contents (Elt Ideal)) (x10 : (⟨S800000, .i32⟩ : BufTy).Contents (Elt Ideal)) :
    val_main_v29 (F := Ideal) x0 x1 x2 x3 x4 x5 x6 x9 x10
      = Region1.out (val_main_v13 (F := Ideal) x0 x1 x3 x9 x10) (Chain.row256 x4) (Chain.row256 x5) x2 x6 := by
  funext i
  rw [val_main_v29_apply]
  unfold Region1.out
  refine Finset.sum_congr rfl fun k _ => ?_
  have el : lidx_main_v29 i k = ix2 ⟨(i 0).val, idx2_lt0 i⟩ k := funext fun a => Fin.ext (by
    match a with
    | ⟨0, _⟩ => rfl
    | ⟨1, _⟩ => rfl)
  have er : ridx_main_v29 i k = ix2 k ⟨(i 1).val, idx2_lt1 i⟩ := funext fun a => Fin.ext (by
    match a with
    | ⟨0, _⟩ => rfl
    | ⟨1, _⟩ => rfl)
  rw [el, er]
  refine congrArg (· * x6 (ix2 k ⟨(i 1).val, idx2_lt1 i⟩)) ?_
  rw [val_main_v28_apply, val_main_v22_apply, val_main_v27_apply, val_main_v25_apply, val_main_v24_apply, val_main_v18_apply,
    val_main_v21_apply, val_main_v16_apply, val_main_v15_apply, val_main_v14_apply, val_main_v20_apply, val_main_v19_apply,
    val_main_v17_apply, val_main_cst_1_apply, val_main_v23_apply, val_main_cst_2_apply, val_main_v26_apply, val_main_cst_3_apply]
  unfold Region1.hid
  rw [row256_apply, row256_apply, Scalars.keep_eq]
  have e4 : idx_main_v14 (idx_main_v15 (ix2 (⟨(i 0).val, idx2_lt0 i⟩ : Fin 50000) k)) = ix1 k := funext fun a => Fin.ext (by
    match a with
    | ⟨0, _⟩ => rfl)
  have e5 : idx_main_v19 (idx_main_v20 (ix2 (⟨(i 0).val, idx2_lt0 i⟩ : Fin 50000) k)) = ix1 k := funext fun a => Fin.ext (by
    match a with
    | ⟨0, _⟩ => rfl)
  rw [e4, e5]
  rfl

/-- The reference's second aggregation is the kernel's, applied to the reference's second product. -/
theorem stage3 (x0 : (⟨S50000x128, .f32⟩ : BufTy).Contents (Elt Ideal)) (x1 : (⟨S800000, .f32⟩ : BufTy).Contents (Elt Ideal)) (x2 : (⟨S50000x256, .f32⟩ : BufTy).Contents (Elt Ideal)) (x3 : (⟨S128x256, .f32⟩ : BufTy).Contents (Elt Ideal)) (x4 : (⟨S256, .f32⟩ : BufTy).Contents (Elt Ideal)) (x5 : (⟨S256, .f32⟩ : BufTy).Contents (Elt Ideal)) (x6 : (⟨S256x128, .f32⟩ : BufTy).Contents (Elt Ideal)) (x9 : (⟨S800000, .i32⟩ : BufTy).Contents (Elt Ideal)) (x10 : (⟨S800000, .i32⟩ : BufTy).Contents (Elt Ideal)) :
    val_main_v42 (F := Ideal) x0 x1 x2 x3 x4 x5 x6 x9 x10
      = Chain.agg128 (val_main_v29 (F := Ideal) x0 x1 x2 x3 x4 x5 x6 x9 x10) x1 x9 x10 := rfl

/-- The reference's output activation is the third region's function of the second aggregate. -/
theorem stage4 (x0 : (⟨S50000x128, .f32⟩ : BufTy).Contents (Elt Ideal)) (x1 : (⟨S800000, .f32⟩ : BufTy).Contents (Elt Ideal)) (x2 : (⟨S50000x256, .f32⟩ : BufTy).Contents (Elt Ideal)) (x3 : (⟨S128x256, .f32⟩ : BufTy).Contents (Elt Ideal)) (x4 : (⟨S256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S128, .f32⟩ : BufTy).Contents (Elt Ideal)) (x9 : (⟨S800000, .i32⟩ : BufTy).Contents (Elt Ideal)) (x10 : (⟨S800000, .i32⟩ : BufTy).Contents (Elt Ideal)) :
    val_main_v51 (F := Ideal) x0 x1 x2 x3 x4 x5 x6 x7 x8 x9 x10
      = Region2.out (val_main_v42 (F := Ideal) x0 x1 x2 x3 x4 x5 x6 x9 x10) (Chain.row128 x7) (Chain.row128 x8) := by
  funext i
  rw [val_main_v51_apply, val_main_v47_apply, val_main_v50_apply, val_main_v45_apply, val_main_v44_apply, val_main_v43_apply,
    val_main_v49_apply, val_main_v48_apply, val_main_v46_apply, val_main_cst_7_apply]
  unfold Region2.out Region2.act
  rw [row128_apply, row128_apply]
  have e7 : idx_main_v43 (idx_main_v44 i) = ix1 (⟨(i 1).val, idx2_lt1 i⟩ : Fin 128) := funext fun a => Fin.ext (by
    match a with
    | ⟨0, _⟩ => rfl)
  have e8 : idx_main_v48 (idx_main_v49 i) = ix1 (⟨(i 1).val, idx2_lt1 i⟩ : Fin 128) := funext fun a => Fin.ext (by
    match a with
    | ⟨0, _⟩ => rfl)
  rw [e7, e8]
  rfl

/-- The reference's result term is the kernel's result function of the same eleven arrays. -/
theorem result_eq (x0 : (⟨S50000x128, .f32⟩ : BufTy).Contents (Elt Ideal)) (x1 : (⟨S800000, .f32⟩ : BufTy).Contents (Elt Ideal)) (x2 : (⟨S50000x256, .f32⟩ : BufTy).Contents (Elt Ideal)) (x3 : (⟨S128x256, .f32⟩ : BufTy).Contents (Elt Ideal)) (x4 : (⟨S256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S128, .f32⟩ : BufTy).Contents (Elt Ideal)) (x9 : (⟨S800000, .i32⟩ : BufTy).Contents (Elt Ideal)) (x10 : (⟨S800000, .i32⟩ : BufTy).Contents (Elt Ideal)) :
    val_main_v51 (F := Ideal) x0 x1 x2 x3 x4 x5 x6 x7 x8 x9 x10 = Chain.result x0 x1 x2 x3 x4 x5 x6 x7 x8 x9 x10 := by
  rw [stage4, stage3, stage2, stage1, stage0]
  rfl

end Cert.Bridge

end
-- ==== Proof.lean ====
/-
  A two-layer graph convolution: the kernel against its plain reference, over the extended reals.

  Both programs compute, from node features x, edge values, a dropout mask, two weight matrices with their bias and slope
  vectors, and the edges' row and column indices:
    h1  = x · W1,                     agg1 = Σ over edges e into row(e) of vals(e) · h1[col(e)],
    hid = prelu(agg1 + b1, a1) · s,   s = 2 where mask > 1/2 and 0 elsewhere,
    h2  = hid · W2,                   agg2 = Σ over edges e into row(e) of vals(e) · h2[col(e)],
    out = prelu(agg2 + b2, a2).
  The kernel does the two dense products and the two activations in three grid kernels over blocks of 1000 rows and the
  two aggregations on the host; the reference does everything on the host. Over the extended reals a change of float
  format is the identity and a product into a zero accumulator is the same finite sum as the host's, so each kernel
  region's result array is one function of the arrays it found (Region0, Region1, Region2); the aggregations are the
  same operations in both programs and are carried as named functions (Chain); and the one place where the two differ,
  the scale s against the comparison bit divided by 1/2, is an identity (Scalars). The reference's result is then the
  same function of the arguments as the kernel's (Bridge). No finiteness of the inputs is used.
-/
import proofs.«140422_j3762391351712_1_alg».proof.Defs
import proofs.«140422_j3762391351712_1_alg».proof.Proof.Gen.Kernel
import proofs.«140422_j3762391351712_1_alg».proof.Proof.Gen.Kernel.Skeleton
import proofs.«140422_j3762391351712_1_alg».proof.Proof.Gen.Kernel.Launch
import proofs.«140422_j3762391351712_1_alg».proof.Proof.Gen.Kernel.Points
import proofs.«140422_j3762391351712_1_alg».proof.Proof.Gen.Kernel.Frame
import proofs.«140422_j3762391351712_1_alg».proof.Proof.Gen.KernelIdeal
import proofs.«140422_j3762391351712_1_alg».proof.Proof.Gen.KernelIdeal.Skeleton
import proofs.«140422_j3762391351712_1_alg».proof.Proof.Gen.KernelIdeal.Launch
import proofs.«140422_j3762391351712_1_alg».proof.Proof.Gen.KernelIdeal.Points
import proofs.«140422_j3762391351712_1_alg».proof.Proof.Gen.KernelIdeal.Frame
import proofs.«140422_j3762391351712_1_alg».proof.Proof.Gen.ReferenceIdeal
import proofs.«140422_j3762391351712_1_alg».proof.Proof.Gen.ReferenceIdeal.Run
import proofs.«140422_j3762391351712_1_alg».proof.Proof.Gen.ReferenceIdeal.Read
import proofs.«140422_j3762391351712_1_alg».proof.Proof.Gen.Pre_finite_inputs
import proofs.«140422_j3762391351712_1_alg».proof.Proof.RunValue
import proofs.«140422_j3762391351712_1_alg».proof.Proof.Chain
import proofs.«140422_j3762391351712_1_alg».proof.Proof.Bridge
import Idealize.ShloMosaic.Adequacy
import Idealize.ShloMosaic.Init

noncomputable section

namespace Cert.Proof

open Idealize.ShloMosaic Idealize.ShloMosaic.TcCoe Idealize.SL.Sem

/-- The kernel's program runs and leaves its arguments as launched. -/
theorem frame_k : Cert.frame_Kernel := fun m ρ _ => Cert.Kernel.Gen.frame m ρ

/-- The idealized kernel's program runs and leaves its arguments as launched. -/
theorem frame_ki : Cert.frame_KernelIdeal := fun m ρ _ => Cert.KernelIdeal.Gen.frame m ρ

/-- The idealized reference runs and leaves its arguments as launched: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- From memories agreeing on the arguments both programs end with the result array at the same function of the
    arguments: the kernel by its three regions and two host stretches, the reference by its run and the stage-by-stage
    identities. -/
theorem algebraic : Cert.algebraic_KernelIdeal_ReferenceIdeal := by
  intro m ρ m' ρ' _ hagree
  refine ⟨fun c => Cert.KernelIdeal.Chain.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.W5_result m ρ c), (h c).2⟩)
      (Cert.KernelIdeal.RunValue.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v51_eq, Cert.Bridge.result_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
